-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x65536x256 : Shape := ⟨3, ![4, 65536, 256]⟩
abbrev S512x1536 : Shape := ⟨2, ![512, 1536]⟩
abbrev S256x1536 : Shape := ⟨2, ![256, 1536]⟩
abbrev S512x256 : Shape := ⟨2, ![512, 256]⟩
abbrev S65536 : Shape := ⟨1, ![65536]⟩
abbrev S_ : Shape := ⟨0, ![]⟩

class Facts : Prop where
  bcast_S_S4x65536x256 : S_.BroadcastsInDim S4x65536x256 (![] : Fin 0 → Fin S4x65536x256.rank)
  reducesTo_S4x65536x256_S_d0_1_2 : S4x65536x256.ReducesTo [0, 1, 2] S_
  h_S_ : 0 < S_.numel
  bcast_S_S512x1536 : S_.BroadcastsInDim S512x1536 (![] : Fin 0 → Fin S512x1536.rank)
  reducesTo_S512x1536_S_d0_1 : S512x1536.ReducesTo [0, 1] S_
  bcast_S_S256x1536 : S_.BroadcastsInDim S256x1536 (![] : Fin 0 → Fin S256x1536.rank)
  reducesTo_S256x1536_S_d0_1 : S256x1536.ReducesTo [0, 1] S_
  bcast_S_S512x256 : S_.BroadcastsInDim S512x256 (![] : Fin 0 → Fin S512x256.rank)
  reducesTo_S512x256_S_d0_1 : S512x256.ReducesTo [0, 1] S_
  bcast_S_S65536 : S_.BroadcastsInDim S65536 (![] : Fin 0 → Fin S65536.rank)
  reducesTo_S65536_S_d0 : S65536.ReducesTo [0] S_

variable [Facts]

def fn_part1 {F : FTy → Type} [FloatOps F] (main_arg4 : IVec S65536 32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_c_6 : IVec S_ 32 := constantI S_ 32 0#32
  let main_v19 : IVec S65536 32 := broadcastInDim S65536 ![] bcast_S_S65536 main_c_6
  let main_v20 : IVec S65536 1 := cmpi .sge main_arg4 main_v19
  let main_c_7 : IVec S_ 1 := constantI S_ 1 1#1
  let main_v21 : IVec S_ 1 := (fun x v => Host.reduce IntOp.andi x v reducesTo_S65536_S_d0 h_S_) main_v20 main_c_7
  let main_v22 : IVec S_ 1 := andi main_v18 main_v21
  let main_c_8 : IVec S_ 32 := constantI S_ 32 512#32
  let main_v23 : IVec S65536 32 := broadcastInDim S65536 ![] bcast_S_S65536 main_c_8
  let main_v24 : IVec S65536 1 := cmpi .slt main_arg4 main_v23
  let main_c_9 : IVec S_ 1 := constantI S_ 1 1#1
  let main_v25 : IVec S_ 1 := (fun x v => Host.reduce IntOp.andi x v reducesTo_S65536_S_d0 h_S_) main_v24 main_c_9
  let main_v26 : IVec S_ 1 := andi main_v22 main_v25
  main_v26

def fn {F : FTy → Type} [FloatOps F] (main_arg0 : FVec F S4x65536x256 .f32) (main_arg1 : FVec F S512x1536 .f32) (main_arg2 : FVec F S256x1536 .f32) (main_arg3 : FVec F S512x256 .f32) (main_arg4 : IVec S65536 32) : IVec S_ 1 :=
  let main_v0 : FVec F S4x65536x256 .f32 := Host.absf main_arg0
  let main_cst : FVec F S_ .f32 := constant S_ .f32 0x7F800000#32
  let main_v1 : FVec F S4x65536x256 .f32 := broadcastInDim S4x65536x256 ![] bcast_S_S4x65536x256 main_cst
  let main_v2 : IVec S4x65536x256 1 := cmpf .olt main_v0 main_v1
  let main_c : IVec S_ 1 := constantI S_ 1 1#1
  let main_v3 : IVec S_ 1 := (fun x v => Host.reduce IntOp.andi x v reducesTo_S4x65536x256_S_d0_1_2 h_S_) main_v2 main_c
  let main_v4 : FVec F S512x1536 .f32 := Host.absf main_arg1
  let main_cst_0 : FVec F S_ .f32 := constant S_ .f32 0x7F800000#32
  let main_v5 : FVec F S512x1536 .f32 := broadcastInDim S512x1536 ![] bcast_S_S512x1536 main_cst_0
  let main_v6 : IVec S512x1536 1 := cmpf .olt main_v4 main_v5
  let main_c_1 : IVec S_ 1 := constantI S_ 1 1#1
  let main_v7 : IVec S_ 1 := (fun x v => Host.reduce IntOp.andi x v reducesTo_S512x1536_S_d0_1 h_S_) main_v6 main_c_1
  let main_v8 : IVec S_ 1 := andi main_v3 main_v7
  let main_v9 : FVec F S256x1536 .f32 := Host.absf main_arg2
  let main_cst_2 : FVec F S_ .f32 := constant S_ .f32 0x7F800000#32
  let main_v10 : FVec F S256x1536 .f32 := broadcastInDim S256x1536 ![] bcast_S_S256x1536 main_cst_2
  let main_v11 : IVec S256x1536 1 := cmpf .olt main_v9 main_v10
  let main_c_3 : IVec S_ 1 := constantI S_ 1 1#1
  let main_v12 : IVec S_ 1 := (fun x v => Host.reduce IntOp.andi x v reducesTo_S256x1536_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_v13 main_v16
-- ==== Kernel.lean ====
abbrev S4x65536x256 : Shape := ⟨3, ![4, 65536, 256]⟩
abbrev S512x1536 : Shape := ⟨2, ![512, 1536]⟩
abbrev S256x1536 : Shape := ⟨2, ![256, 1536]⟩
abbrev S512x256 : Shape := ⟨2, ![512, 256]⟩
abbrev S65536 : Shape := ⟨1, ![65536]⟩
abbrev S1536x256 : Shape := ⟨2, ![1536, 256]⟩
abbrev S4x1024x256 : Shape := ⟨3, ![4, 1024, 256]⟩
abbrev S1024 : Shape := ⟨1, ![1024]⟩
abbrev S1024x512 : Shape := ⟨2, ![1024, 512]⟩
abbrev S1024x1 : Shape := ⟨2, ![1024, 1]⟩
abbrev S1024x256 : Shape := ⟨2, ![1024, 256]⟩
abbrev S1x1024x256 : Shape := ⟨3, ![1, 1024, 256]⟩

abbrev nBuf : Space → Nat
  | .hbm => 13
  | .vmem => 8
  | .smem => 0
  | _ => 0

abbrev bufTy : (tb : Table) → Fin (tcTables nBuf tb) → BufTy
  | .hbm, ⟨0, _⟩ => ⟨S4x65536x256, .f32⟩
  | .hbm, ⟨1, _⟩ => ⟨S512x1536, .f32⟩
  | .hbm, ⟨2, _⟩ => ⟨S256x1536, .f32⟩
  | .hbm, ⟨3, _⟩ => ⟨S512x256, .f32⟩
  | .hbm, ⟨4, _⟩ => ⟨S65536, .i32⟩
  | .hbm, ⟨5, _⟩ => ⟨S1536x256, .f32⟩
  | .hbm, ⟨6, _⟩ => ⟨S512x256, .f32⟩
  | .hbm, ⟨7, _⟩ => ⟨S512x256, .f32⟩
  | .hbm, ⟨8, _⟩ => ⟨S512x256, .bf16⟩
  | .hbm, ⟨9, _⟩ => ⟨S512x256, .f32⟩
  | .hbm, ⟨10, _⟩ => ⟨S512x256, .f32⟩
  | .hbm, ⟨11, _⟩ => ⟨S512x256, .bf16⟩
  | .hbm, ⟨12, _⟩ => ⟨S4x65536x256, .f32⟩
  | .local _ .vmem, ⟨0, _⟩ => ⟨S4x1024x256, .f32⟩
  | .local _ .vmem, ⟨1, _⟩ => ⟨S4x1024x256, .f32⟩
  | .local _ .vmem, ⟨2, _⟩ => ⟨S1024, .i32⟩
  | .local _ .vmem, ⟨3, _⟩ => ⟨S1024, .i32⟩
  | .local _ .vmem, ⟨4, _⟩ => ⟨S512x256, .bf16⟩
  | .local _ .vmem, ⟨5, _⟩ => ⟨S512x256, .bf16⟩
  | .local _ .vmem, ⟨6, _⟩ => ⟨S4x1024x256, .f32⟩
  | .local _ .vmem, ⟨7, _⟩ => ⟨S4x1024x256, .f32⟩
  | _, _ => ⟨S4x65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S256x1536_S1536x256_1_0 : S256x1536.Transposes [1, 0] S1536x256
  bitsLt_bf16_f32 : FTy.bits .bf16 < FTy.bits .f32
  inb_S1024_S1024_0 : ∀ a, (![0] : Fin 1 → Nat) a + S1024.size a ≤ S1024.size a
  h_S1024 : 0 < S1024.numel
  iota_S1024x512_d1_w32 : S1024x512.Iotas .tc 32 [1]
  shapeCasts_S1024_S1024x1 : S1024.ShapeCasts S1024x1
  broadcasts_S1024x1_S1024x512 : S1024x1.Broadcasts S1024x512
  natLt_1_32 : 1 < 32
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S4x1024x256_S4x1024x256_0_0_0 : ∀ a, (![0, 0, 0] : Fin 3 → Nat) a + S4x1024x256.size a ≤ S4x1024x256.size a
  h_S4x1024x256 : 0 < S4x1024x256.numel
  shapeCasts_S1024x256_S1x1024x256 : S1024x256.ShapeCasts S1x1024x256
  broadcasts_S1x1024x256_S4x1024x256 : S1x1024x256.Broadcasts S4x1024x256
  dot_S512x1536_S1536x256_S512x256_1_0_0_1_n_n_wf : DotDims.WF S512x1536 S1536x256 S512x256 [1] [0] [0] [1] [] []
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x256.size a ≤ S4x65536x256.size a
  hwx0_0 : ∀ i : grid0.Coords, EltTy.bits .f32 = 32 ∨ (Rect.block (s := S4x65536x256) S4x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S65536.size a
  hwx0_1 : ∀ i : grid0.Coords, EltTy.bits .i32 = 32 ∨ (Rect.block (s := S65536) S1024.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .bf16 = 32 ∨ (Rect.block (s := S512x256) S512x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x1024x256.size a ≤ S4x65536x256.size a
  hwx0_4 : ∀ i : grid0.Coords, EltTy.bits .f32 = 32 ∨ (Rect.block (s := S4x65536x256) S4x1024x256.size (cc0_transform_4 i) (hinb0_4 i)).WholeWords (EltTy.packing .f32)

variable [Facts₀]

def dot_S512x1536_S1536x256_S512x256_1_0_0_1_n_n : DotDims S512x1536 S1536x256 S512x256 where
  lhsContracting := [1]
  rhsContracting := [0]
  lhsNonContracting := [0]
  rhsNonContracting := [1]
  lhsBatch := []
  rhsBatch := []
  wf := dot_S512x1536_S1536x256_S512x256_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_arg0) S4x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S4x1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where
  halias0_4 : Pipeline.Aliased win0 0 4

variable [Facts]
-- ==== ReferenceIdeal.lean ====
abbrev S4x65536x256 : Shape := ⟨3, ![4, 65536, 256]⟩
abbrev S512x1536 : Shape := ⟨2, ![512, 1536]⟩
abbrev S256x1536 : Shape := ⟨2, ![256, 1536]⟩
abbrev S512x256 : Shape := ⟨2, ![512, 256]⟩
abbrev S65536 : Shape := ⟨1, ![65536]⟩
abbrev S_ : Shape := ⟨0, ![]⟩
abbrev S65536x1 : Shape := ⟨2, ![65536, 1]⟩
abbrev S65536x256 : Shape := ⟨2, ![65536, 256]⟩
abbrev S1x65536x256 : Shape := ⟨3, ![1, 65536, 256]⟩

abbrev nBuf : Space → Nat
  | .hbm => 19
  | .vmem => 0
  | .smem => 0
  | _ => 0

abbrev bufTy : (tb : Table) → Fin (tcTables nBuf tb) → BufTy
  | .hbm, ⟨0, _⟩ => ⟨S4x65536x256, .f32⟩
  | .hbm, ⟨1, _⟩ => ⟨S512x1536, .f32⟩
  | .hbm, ⟨2, _⟩ => ⟨S256x1536, .f32⟩
  | .hbm, ⟨3, _⟩ => ⟨S512x256, .f32⟩
  | .hbm, ⟨4, _⟩ => ⟨S65536, .i32⟩
  | .hbm, ⟨5, _⟩ => ⟨S512x256, .f32⟩
  | .hbm, ⟨6, _⟩ => ⟨S512x256, .f32⟩
  | .hbm, ⟨7, _⟩ => ⟨S_, .i32⟩
  | .hbm, ⟨8, _⟩ => ⟨S65536, .i32⟩
  | .hbm, ⟨9, _⟩ => ⟨S65536, .i1⟩
  | .hbm, ⟨10, _⟩ => ⟨S_, .i32⟩
  | .hbm, ⟨11, _⟩ => ⟨S65536, .i32⟩
  | .hbm, ⟨12, _⟩ => ⟨S65536, .i32⟩
  | .hbm, ⟨13, _⟩ => ⟨S65536, .i32⟩
  | .hbm, ⟨14, _⟩ => ⟨S65536x1, .i32⟩
  | .hbm, ⟨15, _⟩ => ⟨S65536x256, .f32⟩
  | .hbm, ⟨16, _⟩ => ⟨S1x65536x256, .f32⟩
  | .hbm, ⟨17, _⟩ => ⟨S4x65536x256, .f32⟩
  | .hbm, ⟨18, _⟩ => ⟨S4x65536x256, .f32⟩
  | _, _ => ⟨S4x65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  bcast_S65536x256_S1x65536x256_1_2 : S65536x256.BroadcastsInDim S1x65536x256 (![1, 2] : Fin 2 → Fin S1x65536x256.rank)
  bcast_S1x65536x256_S4x65536x256_0_1_2 : S1x65536x256.BroadcastsInDim S4x65536x256 (![0, 1, 2] : Fin 3 → Fin S4x65536x256.rank)
  dot_S512x1536_S256x1536_S512x256_1_1_0_0_n_n_wf : DotDims.WF S512x1536 S256x1536 S512x256 [1] [1] [0] [0] [] []
  gather_S512x256_S65536x1_S65536x256_1_0_n_n_0_1_1256_wf : GatherDims.WF S512x256 S65536x1 S65536x256 [1] [0] [] [0] [] 1 ![1, 256]

variable [Facts₀]

def dot_S512x1536_S256x1536_S512x256_1_1_0_0_n_n : DotDims S512x1536 S256x1536 S512x256 where
  lhsContracting := [1]
  rhsContracting := [1]
  lhsNonContracting := [0]
  rhsNonContracting := [0]
  lhsBatch := []
  rhsBatch := []
  wf := dot_S512x1536_S256x1536_S512x256_1_1_0_0_n_n_wf
def gather_S512x256_S65536x1_S65536x256_1_0_n_n_0_1_1256 : GatherDims S512x256 S65536x1 S65536x256 where
  offsetDims := [1]
  collapsedSliceDims := [0]
  operandBatchingDims := []
  startIndicesBatchingDims := []
  startIndexMap := [0]
  indexVectorDim := 1
  sliceSizes := ![1, 256]
  wf := gather_S512x256_S65536x1_S65536x256_1_0_n_n_0_1_1256_wf

class Facts : Prop extends Facts₀ where

variable [Facts]
-- ==== Proof.Spec.lean ====
/-
  The mathematics both programs compute, stated once over the argument arrays at the extended reals.

  A table of 512 rows and 256 columns is projected from the embeddings: entry (r, d) is the sum over the 1536
  features k of embeddings (r, k) · weight (d, k), plus the residual (r, d). Every position n of the canvas
  carries a 32-bit word; when the word, read unsigned, is below 512 it names a row of the table, and that row
  is added to the canvas at position n, in each of the 4 batches. A word that names no row adds nothing.
-/
import Idealize.ShloMosaic.PureOps.Ideal
import Idealize.ShloMosaic.Lib.ValueIdx

noncomputable section

namespace Cert.GatherAdd

open Idealize.ShloMosaic Idealize.ShloMosaic.ValueIdx

abbrev SCanvas : Shape := ⟨3, ![4, 65536, 256]⟩
abbrev SEmb : Shape := ⟨2, ![512, 1536]⟩
abbrev SWgt : Shape := ⟨2, ![256, 1536]⟩
abbrev STab : Shape := ⟨2, ![512, 256]⟩
abbrev SIds : Shape := ⟨1, ![65536]⟩

/-- Entry (r, d) of the projected table: the dot product of embedding row r with weight row d, plus the residual. -/
def tableAt (e : SEmb.Idx → EReal) (w : SWgt.Idx → EReal) (res : STab.Idx → EReal) (r : Fin 512) (d : Fin 256) : EReal :=
  (∑ k : Fin 1536, e (ix2 r k) * w (ix2 d k)) + res (ix2 r d)

/-- The projected table as an array. -/
def table (e : SEmb.Idx → EReal) (w : SWgt.Idx → EReal) (res : STab.Idx → EReal) : STab.Idx → EReal :=
  fun i => tableAt e w res (i 0) (i 1)

/-- Column d of the row a word names; zero when the word, read unsigned, is not below 512. -/
def pick (T : Fin 512 → Fin 256 → EReal) (id : BitVec 32) (d : Fin 256) : EReal :=
  if h : id.toNat < 512 then T ⟨id.toNat, h⟩ d else 0

/-- The result at batch b, position n, column d. -/
def resultAt (canvas : SCanvas.Idx → EReal) (e : SEmb.Idx → EReal) (w : SWgt.Idx → EReal) (res : STab.Idx → EReal)
    (ids : SIds.Idx → BitVec 32) (b : Fin 4) (n : Fin 65536) (d : Fin 256) : EReal :=
  canvas (ix3 b n d) + pick (tableAt e w res) (ids (ix1 n)) d

/-- The result array: canvas plus the named table row, broadcast over the batches. -/
def G (canvas : SCanvas.Idx → EReal) (e : SEmb.Idx → EReal) (w : SWgt.Idx → EReal) (res : STab.Idx → EReal)
    (ids : SIds.Idx → BitVec 32) : SCanvas.Idx → EReal :=
  fun i => resultAt canvas e w res ids (i 0) (i 1) (i 2)

/-- A small number written as a 32-bit word reads back as itself. -/
theorem toNat_ofNat_lt512 (r : Fin 512) : (BitVec.ofNat 32 r.val).toNat = r.val := by
  rw [BitVec.toNat_ofNat]; exact Nat.mod_eq_of_lt (by have := r.isLt; omega)

/-- A sum against the indicator of "the word is r" keeps only the term of the row the word names, and nothing
    when it names none. Holds on all extended reals: 0 · x = 0 and 1 · x = x there too. -/
theorem indicator_sum (id : BitVec 32) (f : Fin 512 → EReal) :
    (∑ r : Fin 512, (if id = BitVec.ofNat 32 r.val then (1 : EReal) else 0) * f r)
      = if h : id.toNat < 512 then f ⟨id.toNat, h⟩ else 0 := by
  by_cases h : id.toNat < 512
  · rw [dif_pos h, Finset.sum_eq_single (⟨id.toNat, h⟩ : Fin 512)]
    · have : id = BitVec.ofNat 32 id.toNat := by simp
      rw [if_pos this, one_mul]
    · intro r _ hr
      have hne : ¬ id = BitVec.ofNat 32 r.val := by
        intro e
        apply hr
        apply Fin.ext
        show r.val = id.toNat
        rw [e, toNat_ofNat_lt512]
      rw [if_neg hne, zero_mul]
    · intro h'; exact absurd (Finset.mem_univ _) h'
  · rw [dif_neg h]
    refine Finset.sum_eq_zero fun r _ => ?_
    have hne : ¬ id = BitVec.ofNat 32 r.val := by
      intro e
      apply h
      rw [e, toNat_ofNat_lt512]
      exact r.isLt
    rw [if_neg hne, zero_mul]

/-- A finite sum of reals, seen in the extended reals, is the sum of their images. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- When the embeddings, the weights and the residuals are real numbers, every table entry is a real number. -/
theorem tableAt_real (e : SEmb.Idx → EReal) (w : SWgt.Idx → EReal) (res : STab.Idx → EReal)
    (he : ∀ i, ∃ x : ℝ, e i = x) (hw : ∀ i, ∃ x : ℝ, w i = x) (hres : ∀ i, ∃ x : ℝ, res i = x)
    (r : Fin 512) (d : Fin 256) : ∃ x : ℝ, tableAt e w res r d = x := by
  choose e' he' using he
  choose w' hw' using hw
  choose res' hres' using hres
  refine ⟨(∑ k : Fin 1536, e' (ix2 r k) * w' (ix2 d k)) + res' (ix2 r d), ?_⟩
  unfold tableAt
  rw [EReal.coe_add, coe_sum, hres']
  congr 1
  refine Finset.sum_congr rfl fun k _ => ?_
  rw [he', hw', EReal.coe_mul]

/-- A real number minus itself is zero in the extended reals (false at the infinities: this is where finiteness
    of the inputs is used). -/
theorem sub_self_of_real {x : EReal} (h : ∃ y : ℝ, x = y) : x - x = 0 := by
  obtain ⟨y, rfl⟩ := h
  rw [← EReal.coe_sub, sub_self, EReal.coe_zero]

end Cert.GatherAdd

end
-- ==== Proof.TableEntry.lean ====
/-
  What the kernel's launch finds in the two table operands of its region.

  Before the region the program computes, on the host, the projected table (embeddings times the transposed
  weights, plus the residuals), keeps it as the "high" table, and keeps as the "low" table the projected table
  minus itself read back from the high one. At the extended reals a change of float format is the identity, so
  the high table is the projected table and every entry of the low table is x - x for a table entry x.
-/
import proofs.«426780_j54778012893648_3_alg».proof.Proof.Gen.KernelIdeal.Frame
import proofs.«426780_j54778012893648_3_alg».proof.Proof.Spec
import Idealize.ShloMosaic.Lib.Pipeline.Value
import Idealize.ShloMosaic.Lib.ValueIdx
import Idealize.ShloMosaic.PureOps.Ideal.Laws
import Idealize.ShloMosaic.Lib.StableHlo.Run

noncomputable section

namespace Cert.GatherAdd.KernelSide

open Cert.KernelIdeal Cert.KernelIdeal.Gen Idealize.ShloMosaic Idealize.ShloMosaic.TcCoe Idealize.SL.Sem
open Idealize.ShloMosaic.StableHlo Idealize.ShloMosaic.ValueIdx Cert.GatherAdd

/-! ## The host product's operand indices, axis by axis -/

theorem hostdot_lhs_0 (i : S512x256.Idx) (q : dot_S512x1536_S1536x256_S512x256_1_0_0_1_n_n.contr.Idx) :
    (dot_S512x1536_S1536x256_S512x256_1_0_0_1_n_n.lhsIdx i q 0).val = (i 0).val := by
  unfold DotDims.lhsIdx
  rw [dif_neg (show ¬(0 : Fin S512x1536.rank) ∈ dot_S512x1536_S1536x256_S512x256_1_0_0_1_n_n.lhsBatch by decide), dif_pos (show (0 : Fin S512x1536.rank) ∈ dot_S512x1536_S1536x256_S512x256_1_0_0_1_n_n.lhsNonContracting by decide)]
  rfl
theorem hostdot_lhs_1 (i : S512x256.Idx) (q : dot_S512x1536_S1536x256_S512x256_1_0_0_1_n_n.contr.Idx) :
    (dot_S512x1536_S1536x256_S512x256_1_0_0_1_n_n.lhsIdx i q 1).val = (q ⟨0, by decide⟩).val :=
  dot_S512x1536_S1536x256_S512x256_1_0_0_1_n_n.lhsIdx_val_of_single rfl i q
theorem hostdot_rhs_0 (i : S512x256.Idx) (q : dot_S512x1536_S1536x256_S512x256_1_0_0_1_n_n.contr.Idx) :
    (dot_S512x1536_S1536x256_S512x256_1_0_0_1_n_n.rhsIdx i q 0).val = (q ⟨0, by decide⟩).val :=
  dot_S512x1536_S1536x256_S512x256_1_0_0_1_n_n.rhsIdx_val_of_single rfl i q
theorem hostdot_rhs_1 (i : S512x256.Idx) (q : dot_S512x1536_S1536x256_S512x256_1_0_0_1_n_n.contr.Idx) :
    (dot_S512x1536_S1536x256_S512x256_1_0_0_1_n_n.rhsIdx i q 1).val = (i 1).val := by
  unfold DotDims.rhsIdx
  rw [dif_neg (show ¬(1 : Fin S1536x256.rank) ∈ dot_S512x1536_S1536x256_S512x256_1_0_0_1_n_n.rhsBatch by decide), dif_pos (show (1 : Fin S1536x256.rank) ∈ dot_S512x1536_S1536x256_S512x256_1_0_0_1_n_n.rhsNonContracting by decide)]
  rfl

/-- The host product of the embeddings with the transposed weights, read at (r, d): the sum over the features k of
    embeddings (r, k) times weights (d, k). -/
theorem hostdot_apply (e : FVec Ideal S512x1536 .f32) (w : FVec Ideal S256x1536 .f32) (r : Fin 512) (d : Fin 256) :
    Host.dotGeneral (F := Ideal) dot_S512x1536_S1536x256_S512x256_1_0_0_1_n_n none e
        (transpose S1536x256 [1, 0] w transposes_S256x1536_S1536x256_1_0) (ix2 r d)
      = ∑ k : Fin 1536, e (ix2 r k) * w (ix2 d k) := by
  simp only [Host.dotGeneral]
  rw [Ideal.dotGeneral_apply, ← Equiv.sum_comp (ValueIdx.contrEquiv1 dot_S512x1536_S1536x256_S512x256_1_0_0_1_n_n 1536 rfl rfl).symm]
  refine Finset.sum_congr rfl fun k _ => ?_
  have hk := ValueIdx.contrEquiv1_symm_val dot_S512x1536_S1536x256_S512x256_1_0_0_1_n_n 1536 rfl rfl k
  have el : dot_S512x1536_S1536x256_S512x256_1_0_0_1_n_n.lhsIdx (ix2 r d) ((ValueIdx.contrEquiv1 dot_S512x1536_S1536x256_S512x256_1_0_0_1_n_n 1536 rfl rfl).symm k) = ix2 r k := funext fun a => Fin.ext (by
    match a with
    | ⟨0, _⟩ => exact hostdot_lhs_0 _ _
    | ⟨1, _⟩ => exact (hostdot_lhs_1 _ _).trans hk)
  rw [el]
  refine congrArg (e (ix2 r k) * ·) ?_
  refine transpose_apply [1, 0] w transposes_S256x1536_S1536x256_1_0 _ (ix2 d k) fun b => ?_
  match b with
  | ⟨0, _⟩ => exact ((hostdot_rhs_0 _ _).trans hk).symm
  | ⟨1, _⟩ => exact (hostdot_rhs_1 (ix2 r d) _).symm

variable (m : (ℓ : Loc nD τ sig) → Buf (Elt Ideal) ℓ)

/-- The arguments as the program is launched with them. -/
abbrev embArg (c : Dev nD) : FVec Ideal S512x1536 .f32 := m ((c : Thread nD τ).loc main_arg1)
abbrev wgtArg (c : Dev nD) : FVec Ideal S256x1536 .f32 := m ((c : Thread nD τ).loc main_arg2)
abbrev resArg (c : Dev nD) : FVec Ideal S512x256 .f32 := m ((c : Thread nD τ).loc main_arg3)

/-- The three tables as the region finds them: the projected table, and the high and low tables the body is handed. -/
abbrev projTab (c : Dev nD) : FVec Ideal S512x256 .f32 := V m c main_v2
abbrev hiTab (c : Dev nD) : FVec Ideal S512x256 .bf16 := V m c main_v3
abbrev loTab (c : Dev nD) : FVec Ideal S512x256 .bf16 := V m c main_v6

/-- The projected table the host computes, read at (r, d). -/
theorem proj_apply (c : Dev nD) (r : Fin 512) (d : Fin 256) :
    projTab m c (ix2 r d) = tableAt (embArg m c) (wgtArg m c) (resArg m c) r d := by
  have e : projTab m c =
      addf (F := Ideal) (Host.dotGeneral (F := Ideal) dot_S512x1536_S1536x256_S512x256_1_0_0_1_n_n none (embArg m c)
        (transpose S1536x256 [1, 0] (wgtArg m c) transposes_S256x1536_S1536x256_1_0)) (resArg m c) := by
    dsimp only [projTab, Gen.V, Gen.hostOps0]; after_results <;> rfl
  rw [e, addf_apply, hostdot_apply]
  rfl

/-- The high table the region finds is the projected table. -/
theorem hi_apply (c : Dev nD) (r : Fin 512) (d : Fin 256) :
    hiTab m c (ix2 r d) = tableAt (embArg m c) (wgtArg m c) (resArg m c) r d := by
  have e : hiTab m c = truncf (F := Ideal) .bf16 (projTab m c) bitsLt_bf16_f32 := by
    dsimp only [hiTab, projTab, Gen.V, Gen.hostOps0]; after_results <;> rfl
  rw [e, truncf_apply, proj_apply]

/-- Every entry of the low table the region finds is a projected-table entry minus itself. -/
theorem lo_apply (c : Dev nD) (r : Fin 512) (d : Fin 256) :
    loTab m c (ix2 r d)
      = tableAt (embArg m c) (wgtArg m c) (resArg m c) r d - tableAt (embArg m c) (wgtArg m c) (resArg m c) r d := by
  have e : loTab m c = truncf (F := Ideal) .bf16 (subf (F := Ideal) (projTab m c)
      (extf (F := Ideal) .f32 (hiTab m c) bitsLt_bf16_f32)) bitsLt_bf16_f32 := by
    dsimp only [loTab, hiTab, projTab, Gen.V, Gen.hostOps0]; after_results <;> rfl
  rw [e, truncf_apply, subf_apply, extf_apply, proj_apply, hi_apply]

end Cert.GatherAdd.KernelSide

end
-- ==== Proof.LibColumn.lean ====
/-
  A column vector made from a vector and spread over the columns of a matrix, read at an index.

  `keepdims` reductions leave a vector `[a]` that is first given a trailing unit axis, `[a, 1]`,
  and then broadcast along it to `[a, b]`. Read at `(p, c)` the result is the vector at `p`:
  the shape cast keeps the row-major position (`p * 1 + 0 = p`), and the broadcast reads a
  unit axis at `0` whatever the column.
-/
import Idealize.ShloMosaic.Lib.Pipeline.Value
import Idealize.ShloMosaic.Lib.ValueIdx

noncomputable section

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector as a column, spread over `b` columns, reads at `(p, c)` the vector at `p`. -/
theorem column_spread_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx

end
-- ==== Proof.Payload.lean ====
/-
  The value the kernel's body stores, read at one entry of the block.

  At a grid point the body holds 1024 words, the two tables (512 rows, 256 columns) and a canvas block of
  4 x 1024 x 256. It builds the 1024 x 512 indicator matrix "word n is r", multiplies it with each table, adds
  the two products and adds the sum to every batch of the canvas block. A product of the indicator matrix with a
  table, read at (n, d), is the table's row named by word n at column d, or zero when the word names no row.
-/
import proofs.«426780_j54778012893648_3_alg».proof.Proof.Gen.KernelIdeal.Skeleton
import proofs.«426780_j54778012893648_3_alg».proof.Proof.Spec
import proofs.«426780_j54778012893648_3_alg».proof.Proof.LibColumn
import Idealize.ShloMosaic.Lib.Pipeline.Value
import Idealize.ShloMosaic.Lib.ValueIdx
import Idealize.ShloMosaic.Lib.ValueLayout
import Idealize.ShloMosaic.Lib.StableHlo.Predicate
import Idealize.ShloMosaic.PureOps.Ideal.Laws

noncomputable section

namespace Cert.GatherAdd.KernelSide

open Cert.KernelIdeal Cert.KernelIdeal.Gen Idealize.ShloMosaic Idealize.ShloMosaic.TcCoe Idealize.SL.Sem
open Idealize.ShloMosaic.ValueIdx Cert.GatherAdd

/-! ## The body's matrix product's operand indices, axis by axis -/

theorem mm_lhs_0 (i : S1024x256.Idx) (q : dot_S1024x512_S512x256_S1024x256_1_0_0_1_n_n.contr.Idx) :
    (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
theorem mm_lhs_1 (i : S1024x256.Idx) (q : dot_S1024x512_S512x256_S1024x256_1_0_0_1_n_n.contr.Idx) :
    (dot_S1024x512_S512x256_S1024x256_1_0_0_1_n_n.lhsIdx i q 1).val = (q ⟨0, by decide⟩).val :=
  dot_S1024x512_S512x256_S1024x256_1_0_0_1_n_n.lhsIdx_val_of_single rfl i q
theorem mm_rhs_0 (i : S1024x256.Idx) (q : dot_S1024x512_S512x256_S1024x256_1_0_0_1_n_n.contr.Idx) :
    (dot_S1024x512_S512x256_S1024x256_1_0_0_1_n_n.rhsIdx i q 0).val = (q ⟨0, by decide⟩).val :=
  dot_S1024x512_S512x256_S1024x256_1_0_0_1_n_n.rhsIdx_val_of_single rfl i q
theorem mm_rhs_1 (i : S1024x256.Idx) (q : dot_S1024x512_S512x256_S1024x256_1_0_0_1_n_n.contr.Idx) :
    (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl

/-- The body's matrix product into a zero accumulator, read at (n, d): the sum over the 512 rows r of the left
    factor at (n, r) times the right factor at (r, d). -/
theorem mm_apply (lhs : FVec Ideal S1024x512 .bf16) (rhs : FVec Ideal S512x256 .bf16) (n : Fin 1024) (d : Fin 256) :
    matmul dot_S1024x512_S512x256_S1024x256_1_0_0_1_n_n none lhs rhs (constant (F := Ideal) S1024x256 .f32 0x00000000#32) (ix2 n d)
      = ∑ r : Fin 512, lhs (ix2 n r) * rhs (ix2 r d) := by
  simp only [matmul]
  rw [Ideal.matmul_constant_zero_apply, ← Equiv.sum_comp (ValueIdx.contrEquiv1 dot_S1024x512_S512x256_S1024x256_1_0_0_1_n_n 512 rfl rfl).symm]
  refine Finset.sum_congr rfl fun k _ => ?_
  have hk := ValueIdx.contrEquiv1_symm_val dot_S1024x512_S512x256_S1024x256_1_0_0_1_n_n 512 rfl rfl k
  have el : dot_S1024x512_S512x256_S1024x256_1_0_0_1_n_n.lhsIdx (ix2 n d) ((ValueIdx.contrEquiv1 dot_S1024x512_S512x256_S1024x256_1_0_0_1_n_n 512 rfl rfl).symm k) = ix2 n k := funext fun a => Fin.ext (by
    match a with
    | ⟨0, _⟩ => exact mm_lhs_0 _ _
    | ⟨1, _⟩ => exact (mm_lhs_1 _ _).trans hk)
  have er : dot_S1024x512_S512x256_S1024x256_1_0_0_1_n_n.rhsIdx (ix2 n d) ((ValueIdx.contrEquiv1 dot_S1024x512_S512x256_S1024x256_1_0_0_1_n_n 512 rfl rfl).symm k) = ix2 k d := funext fun a => Fin.ext (by
    match a with
    | ⟨0, _⟩ => exact (mm_rhs_0 _ _).trans hk
    | ⟨1, _⟩ => exact mm_rhs_1 _ _)
  rw [el, er]

/-! ## The indicator matrix -/

/-- The comparison bit, widened to a word and read as a signed integer, is 1 when the two words are equal and 0
    otherwise. -/
theorem indicator_word (a b : BitVec 32) :
    (FloatOps.sitofp (F := Ideal) .f32 ((IntOp.cmpi .eq a b).setWidth 32) : EReal) = if a = b then 1 else 0 := by
  show (((((IntOp.cmpi .eq a b).setWidth 32).toInt : ℝ)) : EReal) = _
  by_cases h : a = b
  · rw [if_pos h, StableHlo.Predicate.cmpi_eq_iff.mpr h]
    norm_num
  · rw [if_neg h, eq_zero_of_ne_one (fun hc => h (StableHlo.Predicate.cmpi_eq_iff.mp hc))]
    norm_num

/-- Entry (n, r) of the indicator matrix the body builds from the block's words: 1 when word n is r, else 0. -/
theorem indicator_entry (x1 : IVec S1024 32) (n : Fin 1024) (r : Fin 512) :
    (truncf .bf16 (sitofp (F := Ideal) .f32 (extui 32 (cmpi .eq
        (broadcastTo S1024x512 (shapeCast S1024x1 x1 shapeCasts_S1024_S1024x1) broadcasts_S1024x1_S1024x512)
        (iota .tc S1024x512 32 [1] iota_S1024x512_d1_w32)) natLt_1_32)) bitsLt_bf16_f32 : FVec Ideal S1024x512 .bf16) (ix2 n r)
      = if x1 (ix1 n) = BitVec.ofNat 32 r.val then 1 else 0 := by
  show (FloatOps.sitofp (F := Ideal) .f32 ((IntOp.cmpi .eq
      (broadcastTo S1024x512 (shapeCast S1024x1 x1 shapeCasts_S1024_S1024x1) broadcasts_S1024x1_S1024x512 (ix2 n r))
      (iota .tc S1024x512 32 [1] iota_S1024x512_d1_w32 (ix2 n r))).setWidth 32) : EReal) = _
  rw [column_spread_apply x1 shapeCasts_S1024_S1024x1 broadcasts_S1024x1_S1024x512 n r, iota_single_apply]
  exact indicator_word _ _

/-- The indicator matrix times a table, read at (n, d): the table's row named by word n, at column d. -/
theorem indicator_mm (x1 : IVec S1024 32) (tbl : FVec Ideal S512x256 .bf16) (n : Fin 1024) (d : Fin 256) :
    matmul dot_S1024x512_S512x256_S1024x256_1_0_0_1_n_n none
        (truncf .bf16 (sitofp (F := Ideal) .f32 (extui 32 (cmpi .eq
          (broadcastTo S1024x512 (shapeCast S1024x1 x1 shapeCasts_S1024_S1024x1) broadcasts_S1024x1_S1024x512)
          (iota .tc S1024x512 32 [1] iota_S1024x512_d1_w32)) natLt_1_32)) bitsLt_bf16_f32)
        tbl (constant (F := Ideal) S1024x256 .f32 0x00000000#32) (ix2 n d)
      = pick (fun r d => tbl (ix2 r d)) (x1 (ix1 n)) d := by
  rw [mm_apply]
  refine (Finset.sum_congr rfl fun r _ => congrArg (· * tbl (ix2 r d)) (indicator_entry x1 n r)).trans ?_
  unfold pick
  exact indicator_sum (x1 (ix1 n)) fun r => tbl (ix2 r d)

/-! ## The stored value -/

/-- The value the body stores, at batch b, row n, column d of the block: the canvas entry plus the high table's
    and the low table's rows named by word n, at column d. -/
theorem pay_apply (x1 : IVec S1024 32) (hi lo : FVec Ideal S512x256 .bf16) (x0 : FVec Ideal S4x1024x256 .f32)
    (b : Fin 4) (n : Fin 1024) (d : Fin 256) :
    k0_pay1 (F := Ideal) x1 hi lo x0 (ix3 b n d)
      = x0 (ix3 b n d) + (pick (fun r d => hi (ix2 r d)) (x1 (ix1 n)) d + pick (fun r d => lo (ix2 r d)) (x1 (ix1 n)) d) := by
  unfold k0_pay1
  dsimp only
  rw [shapeCast_self hi, shapeCast_self lo]
  refine congrArg (x0 (ix3 b n d) + ·) ?_
  refine (broadcastTo_apply _ broadcasts_S1x1024x256_S4x1024x256 (ix3 b n d) (ix3 (0 : Fin 1) n d) fun ax => ?_).trans ?_
  · match ax with
    | ⟨0, _⟩ => rfl
    | ⟨1, _⟩ => rfl
    | ⟨2, _⟩ => rfl
  rw [shapeCast_ab_1ab_apply]
  show _ + _ = _
  rw [indicator_mm, indicator_mm]

end Cert.GatherAdd.KernelSide

end
-- ==== Proof.KernelValue.lean ====
/-
  The kernel's result array after the run is the result function of the arguments.

  The grid has 64 points. Point t works on rows t * 1024 .. t * 1024 + 1023 of the canvas and of the words, on
  all 4 batches and all 256 columns, and on the two whole tables. What it writes back is its canvas block plus,
  for row n of the block, the high table's and the low table's rows named by word n. The high table is the
  projected table; the low table is entry by entry x - x for a table entry x, which is zero because the table
  entries are real numbers when the embeddings, weights and residuals are. So point t writes block t of the
  result function, and the 64 blocks cover the array.
-/
import proofs.«426780_j54778012893648_3_alg».proof.Proof.Gen.KernelIdeal.Value
import proofs.«426780_j54778012893648_3_alg».proof.Proof.TableEntry
import proofs.«426780_j54778012893648_3_alg».proof.Proof.Payload

noncomputable section

namespace Cert.GatherAdd.KernelSide

open Cert.KernelIdeal Cert.KernelIdeal.Gen Idealize.ShloMosaic Idealize.ShloMosaic.TcCoe Idealize.SL.Sem
open Idealize.ShloMosaic.ValueIdx Cert.GatherAdd
open Idealize.ShloMosaic.Pipeline (Dat)

variable (m : (ℓ : Loc nD τ sig) → Buf (Elt Ideal) ℓ) (ρ : Dev nD → PrngReg)

abbrev canvasArg (c : Dev nD) : FVec Ideal S4x65536x256 .f32 := m ((c : Thread nD τ).loc main_arg0)
abbrev idsArg (c : Dev nD) : IVec S65536 32 := m ((c : Thread nD τ).loc main_arg4)

/-- The embeddings, the weights and the residuals hold real numbers. -/
def RealTables (c : Dev nD) : Prop :=
  (∀ i, ∃ x : ℝ, embArg m c i = x) ∧ (∀ i, ∃ x : ℝ, wgtArg m c i = x) ∧ (∀ i, ∃ x : ℝ, resArg m c i = x)

/-- The result function of the launch arguments. -/
abbrev GArgs (c : Dev nD) : S4x65536x256.Idx → EReal :=
  G (canvasArg m c) (embArg m c) (wgtArg m c) (resArg m c) (idsArg m c)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 64 grid points: the canvas, word and result windows sit at block t
    of the row axis, the two table windows at block 0. -/
theorem idx_facts : ∀ t : Fin cfg0.N,
    win0_0.index t (0 : Fin 3) = 0 ∧ win0_0.index t (1 : Fin 3) = t.val ∧ win0_0.index t (2 : Fin 3) = 0
    ∧ win0_1.index t (0 : Fin 1) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = 0 ∧ win0_4.index t (1 : Fin 3) = t.val ∧ win0_4.index t (2 : Fin 3) = 0 :=
  (by decide +kernel : ∀ t : Fin grid0.N, _)

theorem point_lt (t : Fin cfg0.N) : t.val < 64 := Nat.lt_of_lt_of_eq t.isLt N_0

/-- Row n of block t is row t * 1024 + n of the array. -/
def rowOf (t : Fin cfg0.N) (n : Fin 1024) : Fin 65536 := ⟨t.val * 1024 + n.val, by have := point_lt t; omega⟩

/-- The blocks a point is handed, at their literal types. -/
abbrev canvasBlk (c : Dev nD) (t : Fin cfg0.N) : FVec Ideal S4x1024x256 .f32 := iblk m c 0 t
abbrev idsBlk (c : Dev nD) (t : Fin cfg0.N) : IVec S1024 32 := iblk m c 1 t
abbrev hiBlk (c : Dev nD) (t : Fin cfg0.N) : FVec Ideal S512x256 .bf16 := iblk m c 2 t
abbrev loBlk (c : Dev nD) (t : Fin cfg0.N) : FVec Ideal S512x256 .bf16 := iblk m c 3 t

theorem blk_canvas (c : Dev nD) (t : Fin cfg0.N) (b : Fin 4) (n : Fin 1024) (d : Fin 256) :
    canvasBlk m c t (ix3 b n d) = canvasArg m c (ix3 b (rowOf t n) d) := by
  show V m c main_arg0 (((cfg0.win 0).blk t).view.emb (ix3 b n d)) = _
  rw [V_main_arg0]
  refine congrArg (m ((c : Thread nD τ).loc main_arg0)) (funext fun a => Fin.ext ?_)
  obtain ⟨e0, e1, e2, -⟩ := idx_facts t
  match a with
  | ⟨0, _⟩ => show win0_0.index t (0 : Fin 3) * 4 + 1 * b.val = b.val; omega
  | ⟨1, _⟩ => show win0_0.index t (1 : Fin 3) * 1024 + 1 * n.val = t.val * 1024 + n.val; omega
  | ⟨2, _⟩ => show win0_0.index t (2 : Fin 3) * 256 + 1 * d.val = d.val; omega

theorem blk_ids (c : Dev nD) (t : Fin cfg0.N) (n : Fin 1024) :
    idsBlk m c t (ix1 n) = idsArg m c (ix1 (rowOf t n)) := by
  show V m c main_arg4 (((cfg0.win 1).blk t).view.emb (ix1 n)) = _
  rw [V_main_arg4]
  refine congrArg (m ((c : Thread nD τ).loc main_arg4)) (funext fun a => Fin.ext ?_)
  obtain ⟨-, -, -, e3, -⟩ := idx_facts t
  match a with
  | ⟨0, _⟩ => show win0_1.index t (0 : Fin 1) * 1024 + 1 * n.val = t.val * 1024 + n.val; omega

theorem blk_hi (c : Dev nD) (t : Fin cfg0.N) (r : Fin 512) (d : Fin 256) :
    hiBlk m c t (ix2 r d) = hiTab m c (ix2 r d) := by
  show V m c main_v3 (((cfg0.win 2).blk t).view.emb (ix2 r d)) = V m c main_v3 (ix2 r d)
  refine congrArg (V m c main_v3) (funext fun a => Fin.ext ?_)
  obtain ⟨-, -, -, -, e4, e5, -⟩ := idx_facts t
  match a with
  | ⟨0, _⟩ => show win0_2.index t (0 : Fin 2) * 512 + 1 * r.val = r.val; omega
  | ⟨1, _⟩ => show win0_2.index t (1 : Fin 2) * 256 + 1 * d.val = d.val; omega

theorem blk_lo (c : Dev nD) (t : Fin cfg0.N) (r : Fin 512) (d : Fin 256) :
    loBlk m c t (ix2 r d) = loTab m c (ix2 r d) := by
  show V m c main_v6 (((cfg0.win 3).blk t).view.emb (ix2 r d)) = V m c main_v6 (ix2 r d)
  refine congrArg (V m c main_v6) (funext fun a => Fin.ext ?_)
  obtain ⟨-, -, -, -, -, -, e6, e7, -⟩ := idx_facts t
  match a with
  | ⟨0, _⟩ => show win0_3.index t (0 : Fin 2) * 512 + 1 * r.val = r.val; omega
  | ⟨1, _⟩ => show win0_3.index t (1 : Fin 2) * 256 + 1 * d.val = d.val; omega

theorem emb_out (t : Fin cfg0.N) (b : Fin 4) (n : Fin 1024) (d : Fin 256) :
    ((cfg0.win 4).blk t).view.emb (ix3 b n d) = ix3 b (rowOf t n) d := by
  refine funext fun a => Fin.ext ?_
  obtain ⟨-, -, -, -, -, -, -, -, e8, e9, e10⟩ := idx_facts t
  match a with
  | ⟨0, _⟩ => show win0_4.index t (0 : Fin 3) * 4 + 1 * b.val = b.val; omega
  | ⟨1, _⟩ => show win0_4.index t (1 : Fin 3) * 1024 + 1 * n.val = t.val * 1024 + n.val; omega
  | ⟨2, _⟩ => show win0_4.index t (2 : Fin 3) * 256 + 1 * d.val = d.val; omega

/-- The high table's row a word names is the projected table's. -/
theorem pick_hi (c : Dev nD) (t : Fin cfg0.N) (w : BitVec 32) (d : Fin 256) :
    pick (fun r d => hiBlk m c t (ix2 r d)) w d = pick (tableAt (embArg m c) (wgtArg m c) (resArg m c)) w d := by
  unfold pick
  split
  · exact (blk_hi m c t _ d).trans (hi_apply m c _ d)
  · rfl

/-- The low table's row a word names is zero: each entry is a real number minus itself. -/
theorem pick_lo (c : Dev nD) (hreal : RealTables m c) (t : Fin cfg0.N) (w : BitVec 32) (d : Fin 256) :
    pick (fun r d => loBlk m c t (ix2 r d)) w d = 0 := by
  unfold pick
  split
  · exact ((blk_lo m c t _ d).trans (lo_apply m c _ d)).trans
      (sub_self_of_real (tableAt_real _ _ _ hreal.1 hreal.2.1 hreal.2.2 _ _))
  · rfl

/-- WHAT POINT t WRITES BACK is block t of the result function. -/
theorem flushed_eq (c : Dev nD) (hreal : RealTables m c) (t : Fin cfg0.N) :
    (dats m 0 c).flushed 4 t = ((cfg0.win 4).blk t).view.read (Elt Ideal) (GArgs m c) := by
  rw [Value.flushed4]
  unfold out0_4
  rw [View.canon_unit_zero hz3]
  simp only [View.ld_unit_zero (S := S4x1024x256) hz3, View.ld_unit_zero (S := S1024) hz1, View.ld_unit_zero (S := S512x256) hz2]
  refine funext fun (j : S4x1024x256.Idx) => ?_
  obtain ⟨b, n, d, rfl⟩ : ∃ (b : Fin 4) (n : Fin 1024) (d : Fin 256), j = ix3 b n d := ⟨j 0, j 1, j 2, eq_ix3 j⟩
  show k0_pay1 (F := Ideal) (idsBlk m c t) (hiBlk m c t) (loBlk m c t) (canvasBlk m c t) (ix3 b n d)
    = GArgs m c (((cfg0.win 4).blk t).view.emb (ix3 b n d))
  rw [emb_out]
  refine (pay_apply (idsBlk m c t) (hiBlk m c t) (loBlk m c t) (canvasBlk m c t) b n d).trans ?_
  rw [pick_hi, pick_lo m c hreal, add_zero, blk_canvas, blk_ids]
  rfl

/-- An index of the array is in point t's block iff each coordinate is in the block's range on its axis. -/
theorem mem_blk (t : Fin cfg0.N) (i : S4x65536x256.Idx) :
    i ∈ ((cfg0.win 4).blk t).view.set ↔ ∀ a : Fin 3, win0_4.index t a * S4x1024x256.size a ≤ (i a).val ∧ (i a).val < win0_4.index t a * S4x1024x256.size a + S4x1024x256.size a := by
  show i ∈ ((View.whole main_v7).slice (win0_4.rect t)).set ↔ _
  rw [View.set_slice_whole, Rect.mem_set_unit]
  exact Iff.rfl

/-- Every index of the array is in the block of the point its row falls in. -/
theorem cover (i : S4x65536x256.Idx) :
    ∃ t : Fin cfg0.N, (cfg0.win 4).flush t = true ∧ i ∈ ((cfg0.win 4).blk t).view.set := by
  have h0 : (i 0).val < 4 := (i 0).isLt
  have h1 : (i 1).val < 65536 := (i 1).isLt
  have h2 : (i 2).val < 256 := (i 2).isLt
  refine ⟨⟨(i 1).val / 1024, Nat.lt_of_lt_of_eq (by omega : (i 1).val / 1024 < 64) N_0.symm⟩, flush0_4 _, ?_⟩
  rw [mem_blk]
  obtain ⟨-, -, -, -, -, -, -, -, e8, e9, e10⟩ := idx_facts ⟨(i 1).val / 1024, Nat.lt_of_lt_of_eq (by omega : (i 1).val / 1024 < 64) N_0.symm⟩
  have e9' : win0_4.index ⟨(i 1).val / 1024, Nat.lt_of_lt_of_eq (by omega : (i 1).val / 1024 < 64) N_0.symm⟩ (1 : Fin 3) = (i 1).val / 1024 := e9
  intro a
  match a with
  | ⟨0, _⟩ => show win0_4.index _ (0 : Fin 3) * 4 ≤ (i 0).val ∧ (i 0).val < win0_4.index _ (0 : Fin 3) * 4 + 4; omega
  | ⟨1, _⟩ => show win0_4.index _ (1 : Fin 3) * 1024 ≤ (i 1).val ∧ (i 1).val < win0_4.index _ (1 : Fin 3) * 1024 + 1024; omega
  | ⟨2, _⟩ => show win0_4.index _ (2 : Fin 3) * 256 ≤ (i 2).val ∧ (i 2).val < win0_4.index _ (2 : Fin 3) * 256 + 256; omega

/-- THE ARRAY after the run is the result function of the arguments. -/
theorem final (c : Dev nD) (hreal : RealTables m c) : (dats m 0 c).arrAt 4 cfg0.N = GArgs m c :=
  (dats m 0 c).arrAt_eq_of_cover 4 (GArgs m c) (fun t _ => flushed_eq m c hreal t) cover

/-- The kernel's run, read: the result array at the result function of the arguments, the arguments unchanged. -/
theorem run (hreal : ∀ c, RealTables m c) :
    θ_run defs (onTc (τ := τ) (main (F := Ideal))) ⟨m, fun _ => 0, ρ⟩ fun r => ∀ c : Dev nD,
      r.2.mem ((c : Thread nD τ).loc main_v7) = GArgs m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c (hreal c)), (h c).2⟩) (Value.run_blocks m ρ)

end Cert.GatherAdd.KernelSide

end
-- ==== Proof.RefSide.lean ====
/-
  The reference, read index by index, is the result function when every word names a row.

  The reference projects the same table (the weights are contracted on their second axis directly, with no
  transposition), replaces a negative word w by w + 512, gathers whole rows of the table at the words (a start
  index is clamped into 0 .. 511) and adds the gathered rows to every batch of the canvas. A word whose unsigned
  value is below 512 is not negative and is its own clamp, so the gathered row is the row the word names.
-/
import proofs.«426780_j54778012893648_3_alg».proof.Proof.Gen.ReferenceIdeal.Read
import proofs.«426780_j54778012893648_3_alg».proof.Proof.Spec
import Idealize.ShloMosaic.Lib.Affine
import Idealize.ShloMosaic.Lib.StableHlo.Predicate

noncomputable section

namespace Cert.GatherAdd.RefSide

open Cert.ReferenceIdeal Cert.ReferenceIdeal.Gen Cert.ReferenceIdeal.Read Idealize.ShloMosaic Idealize.ShloMosaic.TcCoe
open Idealize.ShloMosaic.ValueIdx Cert.GatherAdd

/-! ## A gather of whole rows, read at (n, d) -/

/-- The reference's gather takes, for result row n, the table row at the n-th start index, read signed and
    clamped into 0 .. 511; column d of the result is column d of that row. -/
theorem gather_row_apply {α : Type} (x : S512x256.Idx → α) (idx : IVec S65536x1 32) (n : Fin 65536) (d : Fin 256) :
    Host.gather gather_S512x256_S65536x1_S65536x256_1_0_n_n_0_1_1256 x idx (ix2 n d)
      = x (ix2 (⟨min (idx (ix2 n (0 : Fin 1))).toInt.toNat 511, by omega⟩ : Fin 512) d) := by
  unfold Host.gather
  congr 1
  funext a
  refine Fin.ext ?_
  match a with
  | ⟨0, _⟩ =>
    show gather_S512x256_S65536x1_S65536x256_1_0_n_n_0_1_1256.start (ix2 n d) idx 0
        + gather_S512x256_S65536x1_S65536x256_1_0_n_n_0_1_1256.batchCoord (ix2 n d) 0
        + gather_S512x256_S65536x1_S65536x256_1_0_n_n_0_1_1256.offCoord (ix2 n d) 0 = _
    rw [GatherDims.batchCoord_eq_zero _ _ _ (show ¬(0 : Fin S512x256.rank) ∈ gather_S512x256_S65536x1_S65536x256_1_0_n_n_0_1_1256.operandBatchingDims by decide),
      GatherDims.offCoord_eq_zero _ _ _ (fun h => ((GatherDims.mem_sKept _ _).mp h).1 (show (0 : Fin S512x256.rank) ∈ gather_S512x256_S65536x1_S65536x256_1_0_n_n_0_1_1256.collapsedSliceDims by decide))]
    simp only [Nat.add_zero]
    unfold GatherDims.start
    rw [dif_pos (show (0 : Fin S512x256.rank) ∈ gather_S512x256_S65536x1_S65536x256_1_0_n_n_0_1_1256.startIndexMap by decide)]
    have hsi : gather_S512x256_S65536x1_S65536x256_1_0_n_n_0_1_1256.siIdx (ix2 n d)
        ⟨List.idxOf (0 : Fin S512x256.rank) gather_S512x256_S65536x1_S65536x256_1_0_n_n_0_1_1256.startIndexMap,
          List.idxOf_lt_length_iff.2 (show (0 : Fin S512x256.rank) ∈ gather_S512x256_S65536x1_S65536x256_1_0_n_n_0_1_1256.startIndexMap by decide)⟩
        = ix2 n (0 : Fin 1) := by
      funext b; refine Fin.ext ?_
      match b with
      | ⟨0, _⟩ => rfl
      | ⟨1, _⟩ => rfl
    rw [hsi]
    rfl
  | ⟨1, _⟩ =>
    show gather_S512x256_S65536x1_S65536x256_1_0_n_n_0_1_1256.start (ix2 n d) idx 1
        + gather_S512x256_S65536x1_S65536x256_1_0_n_n_0_1_1256.batchCoord (ix2 n d) 1
        + gather_S512x256_S65536x1_S65536x256_1_0_n_n_0_1_1256.offCoord (ix2 n d) 1 = d.val
    rw [GatherDims.batchCoord_eq_zero _ _ _ (show ¬(1 : Fin S512x256.rank) ∈ gather_S512x256_S65536x1_S65536x256_1_0_n_n_0_1_1256.operandBatchingDims by decide)]
    unfold GatherDims.start
    rw [dif_neg (show ¬(1 : Fin S512x256.rank) ∈ gather_S512x256_S65536x1_S65536x256_1_0_n_n_0_1_1256.startIndexMap by decide)]
    unfold GatherDims.offCoord
    rw [dif_pos (show (1 : Fin S512x256.rank) ∈ gather_S512x256_S65536x1_S65536x256_1_0_n_n_0_1_1256.sKept by decide)]
    simp only [Nat.zero_add, Nat.add_zero]
    rfl

/-! ## Words that name a row -/

/-- A word below 512 read unsigned is not negative read signed: the reference's "add 512 to a negative index"
    leaves it alone. -/
theorem normalize_of_lt (w : BitVec 32) (h : w.toNat < 512) :
    Scalar.select (IntOp.cmpi .slt w 0#32) (IntOp.addi w 512#32) w = w := by
  have hnn : ¬ IntOp.cmpi .slt w 0#32 = 1#1 := by
    rw [IntOp.cmpi_slt, StableHlo.Predicate.toInt_eq_toNat_of_lt (by omega)]
    show ¬ ((w.toNat : ℤ) < 0)
    omega
  rw [eq_zero_of_ne_one hnn, select_zero]

/-- Such a word is its own clamp into 0 .. 511. -/
theorem clamp_of_lt (w : BitVec 32) (h : w.toNat < 512) : min w.toInt.toNat 511 = w.toNat := by
  rw [StableHlo.Predicate.toInt_eq_toNat_of_lt (by omega)]
  show min ((w.toNat : ℤ)).toNat 511 = w.toNat
  rw [Int.toNat_natCast]
  omega

/-! ## The reference is the result function -/

/-- The reference's projected table, read at (r, d). -/
theorem ref_table_apply (x1 : FVec Ideal S512x1536 .f32) (x2 : FVec Ideal S256x1536 .f32) (x3 : FVec Ideal S512x256 .f32)
    (r : Fin 512) (d : Fin 256) :
    val_main_v1 (F := Ideal) x1 x2 x3 (ix2 r d) = tableAt x1 x2 x3 r d := by
  rw [val_main_v1_apply, val_main_v0_apply]
  have hl : ∀ k : Fin 1536, lidx_main_v0 (ix2 r d) k = ix2 r k := fun k => funext fun a => Fin.ext (by
    match a with
    | ⟨0, _⟩ => rfl
    | ⟨1, _⟩ => rfl)
  have hrr : ∀ k : Fin 1536, ridx_main_v0 (ix2 r d) k = ix2 d k := fun k => funext fun a => Fin.ext (by
    match a with
    | ⟨0, _⟩ => rfl
    | ⟨1, _⟩ => rfl)
  simp only [hl, hrr]
  rfl

/-- The start index the reference gathers row n at, when word n is below 512: the word itself. -/
theorem ref_index_apply (x4 : IVec S65536 32) (n : Fin 65536) (h : (x4 (ix1 n)).toNat < 512) :
    val_main_v7 (F := Ideal) x4 (ix2 n (0 : Fin 1)) = x4 (ix1 n) := by
  rw [val_main_v7_apply, val_main_v6_apply, val_main_v3_apply, val_main_v5_apply, val_main_v2_apply, val_main_v4_apply,
    val_main_c_apply, val_main_c_0_apply]
  have hi : idx_main_v7 (ix2 n (0 : Fin 1)) = ix1 n := funext fun a => Fin.ext (by
    match a with
    | ⟨0, _⟩ => rfl)
  rw [hi]
  exact normalize_of_lt _ h

/-- With every word below 512, the reference's last stage is the result function of the arguments. -/
theorem ref_eq_G (x0 : FVec Ideal S4x65536x256 .f32) (x1 : FVec Ideal S512x1536 .f32) (x2 : FVec Ideal S256x1536 .f32)
    (x3 : FVec Ideal S512x256 .f32) (x4 : IVec S65536 32) (hr : ∀ n : Fin 65536, (x4 (ix1 n)).toNat < 512) :
    val_main_v11 (F := Ideal) x0 x1 x2 x3 x4 = G x0 x1 x2 x3 x4 := by
  funext i
  obtain ⟨b, n, d, rfl⟩ : ∃ (b : Fin 4) (n : Fin 65536) (d : Fin 256), i = ix3 b n d := ⟨i 0, i 1, i 2, eq_ix3 i⟩
  rw [val_main_v11_apply, val_main_v10_apply, val_main_v9_apply]
  have hi : idx_main_v9 (idx_main_v10 (ix3 b n d)) = ix2 n d := funext fun a => Fin.ext (by
    match a with
    | ⟨0, _⟩ => rfl
    | ⟨1, _⟩ => rfl)
  rw [hi]
  unfold val_main_v8
  rw [gather_row_apply]
  have hrow : (⟨min (val_main_v7 (F := Ideal) x4 (ix2 n (0 : Fin 1))).toInt.toNat 511, by omega⟩ : Fin 512)
      = ⟨(x4 (ix1 n)).toNat, hr n⟩ := Fin.ext (by
    show min (val_main_v7 (F := Ideal) x4 (ix2 n (0 : Fin 1))).toInt.toNat 511 = (x4 (ix1 n)).toNat
    rw [ref_index_apply x4 n (hr n)]
    exact clamp_of_lt _ (hr n))
  rw [hrow, ref_table_apply]
  show x0 (ix3 b n d) + tableAt x1 x2 x3 ⟨(x4 (ix1 n)).toNat, hr n⟩ d = resultAt x0 x1 x2 x3 x4 b n d
  unfold resultAt pick
  rw [dif_pos (hr n)]

end Cert.GatherAdd.RefSide

end
-- ==== Proof.PreDecode.lean ====
/-
  What the precondition says of the arguments.

  The precondition is a conjunction of six "all" reductions: |x| < +infinity over each of the four float arrays,
  and 0 <= w and w < 512 (compared signed) over the words. An extended real whose absolute value is below
  +infinity is a real number; a 32-bit word that is, read signed, at least 0 and below 512 is below 512 read
  unsigned.
-/
import proofs.«426780_j54778012893648_3_alg».proof.Pre_finite_inputs
import Idealize.ShloMosaic.Lib.ReduceAll
import Idealize.ShloMosaic.Lib.Affine
import Idealize.ShloMosaic.Lib.ValueIdx
import Idealize.ShloMosaic.Lib.StableHlo.Predicate
import Idealize.ShloMosaic.PureOps.Ideal.Laws

noncomputable section

namespace Cert.GatherAdd.PreDecode

open Cert.Pre_finite_inputs Idealize.ShloMosaic Idealize.ShloMosaic.ValueIdx

instance : Subsingleton S_.Idx := ⟨fun a b => funext fun d => d.elim0⟩

/-- The f32 pattern 0x7F800000 is +infinity. -/
theorem ofBits_inf : Ideal.ofBits .f32 0x7F800000#32 = (⊤ : EReal) := by
  simp [Ideal.ofBits, Ideal.ieee]

/-- An extended real whose absolute value is below +infinity is a real number. -/
theorem real_of_abs_lt_top (x : EReal) (h : max x (-x) < ⊤) : ∃ y : ℝ, x = y := by
  induction x using EReal.rec with
  | bot => simp at h
  | coe y => exact ⟨y, rfl⟩
  | top => simp at h

/-- The printed finiteness test at one element. -/
theorem real_of_test {s : Shape} (a : FVec Ideal s .f32) (hb : S_.BroadcastsInDim s (![] : Fin 0 → Fin s.rank)) (i : s.Idx)
    (h : cmpf .olt (Host.absf a) (broadcastInDim s ![] hb (constant (F := Ideal) S_ .f32 0x7F800000#32)) i = 1#1) :
    ∃ y : ℝ, a i = y := by
  have h' : Ideal.cmp .olt (max (a i) (-(a i))) (Ideal.ofBits .f32 0x7F800000#32) = 1#1 :=
    (congrArg (fun z => Ideal.cmp .olt (max (a i) (-(a i))) z)
      (StableHlo.Predicate.bcast_scalar hb (by decide) (constant (F := Ideal) S_ .f32 0x7F800000#32) i)).symm.trans h
  rw [ofBits_inf] at h'
  refine real_of_abs_lt_top (a i) ?_
  unfold Ideal.cmp at h'
  simpa [StableHlo.Predicate.ofBool_eq_one_iff] using h'

/-- A word that is at least 0 and below 512 read signed is below 512 read unsigned. -/
theorem toNat_lt_of_signed (w : BitVec 32) (h0 : (0#32).toInt ≤ w.toInt) (h1 : w.toInt < (512#32).toInt) : w.toNat < 512 := by
  have e0 : (0#32 : BitVec 32).toInt = 0 := by decide
  have e1 : (512#32 : BitVec 32).toInt = 512 := by decide
  rw [e0] at h0
  rw [e1] at h1
  have hc := BitVec.toInt_eq_toNat_cond w
  have hl := w.isLt
  by_cases hs : 2 * w.toNat < 2 ^ 32
  · rw [if_pos hs] at hc; omega
  · rw [if_neg hs] at hc; omega

variable [Facts]

/-- The precondition, decoded: the embeddings, the weights and the residuals hold real numbers, and every word
    is below 512. (The canvas is finite too; nothing downstream needs it.) -/
theorem decode (a0 : FVec Ideal S4x65536x256 .f32) (a1 : FVec Ideal S512x1536 .f32) (a2 : FVec Ideal S256x1536 .f32)
    (a3 : FVec Ideal S512x256 .f32) (a4 : IVec S65536 32)
    (h : fn (F := Ideal) a0 a1 a2 a3 a4 = fun _ => 1#1) :
    (∀ i, ∃ x : ℝ, a1 i = x) ∧ (∀ i, ∃ x : ℝ, a2 i = x) ∧ (∀ i, ∃ x : ℝ, a3 i = x) ∧ (∀ i, (a4 i).toNat < 512) := by
  have h0 := congrFun h ix0
  dsimp only [fn, fn_part1] at h0
  obtain ⟨h5, hlt⟩ := IntOp.andi_eq_one.1 h0
  obtain ⟨h4, hge⟩ := IntOp.andi_eq_one.1 h5
  obtain ⟨h3, hres⟩ := IntOp.andi_eq_one.1 h4
  obtain ⟨h2, hw⟩ := IntOp.andi_eq_one.1 h3
  obtain ⟨hcanvas, he⟩ := IntOp.andi_eq_one.1 h2
  refine ⟨fun i => ?_, fun i => ?_, fun i => ?_, fun i => ?_⟩
  · exact real_of_test a1 _ i (Host.reduce_andi_all _ _ _ _ _ he i)
  · exact real_of_test a2 _ i (Host.reduce_andi_all _ _ _ _ _ hw i)
  · exact real_of_test a3 _ i (Host.reduce_andi_all _ _ _ _ _ hres i)
  · have g0 := Host.reduce_andi_all _ _ _ _ _ hge i
    have g1 := Host.reduce_andi_all _ _ _ _ _ hlt i
    have g0' : IntOp.cmpi .sge (a4 i) 0#32 = 1#1 :=
      (congrArg (fun z => IntOp.cmpi .sge (a4 i) z)
        (StableHlo.Predicate.bcast_scalar Facts.bcast_S_S65536 (by decide) (constantI S_ 32 0#32) i)).symm.trans g0
    have g1' : IntOp.cmpi .slt (a4 i) 512#32 = 1#1 :=
      (congrArg (fun z => IntOp.cmpi .slt (a4 i) z)
        (StableHlo.Predicate.bcast_scalar Facts.bcast_S_S65536 (by decide) (constantI S_ 32 512#32) i)).symm.trans g1
    exact toNat_lt_of_signed _ (IntOp.cmpi_sge.1 g0') (IntOp.cmpi_slt.1 g1')

end Cert.GatherAdd.PreDecode

end
-- ==== Proof.lean ====
/-
  The certificate: the kernel adds, to every batch of the canvas, the row of the projected table that each
  position's word names; the reference does the same by a gather.

  Both programs end with the canvas plus row ids[n] of the table embeddings x weights^T + residuals, at every
  position n, under the precondition that the float inputs are finite and every word lies in 0 .. 511.
  The kernel reaches the row by multiplying an indicator matrix with the table, held as a "high" part (the
  table itself, at the extended reals) and a "low" part (the table minus itself, zero because the table is
  finite). The reference reaches it by a gather whose index normalisation and clamp are the identity on
  0 .. 511.
-/
import proofs.«426780_j54778012893648_3_alg».proof.Defs
import proofs.«426780_j54778012893648_3_alg».proof.Proof.Gen.Kernel
import proofs.«426780_j54778012893648_3_alg».proof.Proof.Gen.Kernel.Skeleton
import proofs.«426780_j54778012893648_3_alg».proof.Proof.Gen.Kernel.Launch
import proofs.«426780_j54778012893648_3_alg».proof.Proof.Gen.Kernel.Points
import proofs.«426780_j54778012893648_3_alg».proof.Proof.Gen.Kernel.Frame
import proofs.«426780_j54778012893648_3_alg».proof.Proof.Gen.KernelIdeal
import proofs.«426780_j54778012893648_3_alg».proof.Proof.Gen.KernelIdeal.Skeleton
import proofs.«426780_j54778012893648_3_alg».proof.Proof.Gen.KernelIdeal.Launch
import proofs.«426780_j54778012893648_3_alg».proof.Proof.Gen.KernelIdeal.Points
import proofs.«426780_j54778012893648_3_alg».proof.Proof.Gen.KernelIdeal.Frame
import proofs.«426780_j54778012893648_3_alg».proof.Proof.Gen.ReferenceIdeal
import proofs.«426780_j54778012893648_3_alg».proof.Proof.Gen.Pre_finite_inputs
import proofs.«426780_j54778012893648_3_alg».proof.Proof.Gen.KernelIdeal.Value
import proofs.«426780_j54778012893648_3_alg».proof.Proof.Gen.ReferenceIdeal.Run
import proofs.«426780_j54778012893648_3_alg».proof.Proof.Gen.ReferenceIdeal.Read
import proofs.«426780_j54778012893648_3_alg».proof.Proof.KernelValue
import proofs.«426780_j54778012893648_3_alg».proof.Proof.RefSide
import proofs.«426780_j54778012893648_3_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments as they were. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference runs and leaves its arguments as they were: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text: no rewrite was applied. -/
theorem preserves : Cert.preserves_Kernel_KernelIdeal := trivial

/-- Both programs end with the same array: the canvas plus, at every position, the projected table's row that
    the position's word names. The precondition gives that the table is finite (so the kernel's low table is
    zero) and that every word names a row (so the reference's gather reads that row). -/
theorem algebraic : Cert.algebraic_KernelIdeal_ReferenceIdeal := by
  intro m ρ m' ρ' hpre hagree
  have hdec := fun c => Cert.GatherAdd.PreDecode.decode _ _ _ _ _ (hpre c)
  refine ⟨fun c => Cert.GatherAdd.KernelSide.GArgs m c,
    Cert.GatherAdd.KernelSide.run m ρ (fun c => ⟨(hdec c).1, (hdec c).2.1, (hdec c).2.2.1⟩), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, (hagree c).1, (hagree c).2.1, (hagree c).2.2.1, (hagree c).2.2.2.1,
    (hagree c).2.2.2.2]
  exact Cert.GatherAdd.RefSide.ref_eq_G _ _ _ _ _ (fun n => (hdec c).2.2.2 (ix1 n))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
